-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2049 : Shape := ⟨2, ![2048, 2049]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2049 : S_.BroadcastsInDim S2048x2049 (![] : Fin 0 → Fin S2048x2049.rank)
  reducesTo_S2048x2049_S_d0_1 : S2048x2049.ReducesTo [0, 1] S_

variable [Facts]

def fn {F : FTy → Type} [FloatOps F] (main_arg0 : FVec F S8192x2048 .f32) (main_arg1 : FVec F S2048x2049 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2049 .f32 := Host.absf main_arg1
  let main_cst_0 : FVec F S_ .f32 := constant S_ .f32 0x7F800000#32
  let main_v5 : FVec F S2048x2049 .f32 := broadcastInDim S2048x2049 ![] bcast_S_S2048x2049 main_cst_0
  let main_v6 : IVec S2048x2049 1 := cmpf .olt main_v4 main_v5
  let main_c_1 : IVec S_ 1 := constantI S_ 1 1#1
  let main_v7 : IVec S_ 1 := (fun x v => Host.reduce IntOp.andi x v reducesTo_S2048x2049_S_d0_1 h_S_) main_v6 main_c_1
  let main_v8 : IVec S_ 1 := andi main_v3 main_v7
  main_v8
-- ==== Kernel.lean ====
abbrev S8192x2048 : Shape := ⟨2, ![8192, 2048]⟩
abbrev S2048x2049 : Shape := ⟨2, ![2048, 2049]⟩
abbrev S_ : Shape := ⟨0, ![]⟩
abbrev S8192x1 : Shape := ⟨2, ![8192, 1]⟩
abbrev S8192x127 : Shape := ⟨2, ![8192, 127]⟩
abbrev S8192x2176 : Shape := ⟨2, ![8192, 2176]⟩
abbrev S2048x2176 : Shape := ⟨2, ![2048, 2176]⟩
abbrev S512x2176 : Shape := ⟨2, ![512, 2176]⟩
abbrev S512x512 : Shape := ⟨2, ![512, 512]⟩

abbrev nBuf : Space → Nat
  | .hbm => 12
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2049, .f32⟩
  | .hbm, ⟨2, _⟩ => ⟨S_, .f32⟩
  | .hbm, ⟨3, _⟩ => ⟨S8192x1, .f32⟩
  | .hbm, ⟨4, _⟩ => ⟨S_, .f32⟩
  | .hbm, ⟨5, _⟩ => ⟨S8192x127, .f32⟩
  | .hbm, ⟨6, _⟩ => ⟨S8192x2176, .f32⟩
  | .hbm, ⟨7, _⟩ => ⟨S_, .i32⟩
  | .hbm, ⟨8, _⟩ => ⟨S_, .f32⟩
  | .hbm, ⟨9, _⟩ => ⟨S2048x2176, .f32⟩
  | .hbm, ⟨10, _⟩ => ⟨S2048x2176, .bf16⟩
  | .hbm, ⟨11, _⟩ => ⟨S8192x2048, .f32⟩
  | .local _ .vmem, ⟨0, _⟩ => ⟨S512x2176, .f32⟩
  | .local _ .vmem, ⟨1, _⟩ => ⟨S512x2176, .f32⟩
  | .local _ .vmem, ⟨2, _⟩ => ⟨S512x2176, .bf16⟩
  | .local _ .vmem, ⟨3, _⟩ => ⟨S512x2176, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x1 : S_.BroadcastsInDim S8192x1 (![] : Fin 0 → Fin S8192x1.rank)
  bcast_S_S8192x127 : S_.BroadcastsInDim S8192x127 (![] : Fin 0 → Fin S8192x127.rank)
  concatenates_S8192x2048_S8192x1_S8192x127_S8192x2176_d1 : Shape.Concatenates [S8192x2048, S8192x1, S8192x127] S8192x2176 1
  pads_S2048x2049_S2048x2176_000_01270 : S2048x2049.Pads (![0, 0] : Fin 2 → Nat) ![0, 127] ![0, 0] S2048x2176
  h_S_ : 0 < S_.numel
  bitsLt_bf16_f32 : FTy.bits .bf16 < FTy.bits .f32
  inb_S512x2176_S512x2176_0_0 : ∀ a, (![0, 0] : Fin 2 → Nat) a + S512x2176.size a ≤ S512x2176.size a
  h_S512x2176 : 0 < S512x2176.numel
  shapeCasts_S512x2176_S512x2176 : S512x2176.ShapeCasts S512x2176
  inb_S512x512_S512x512_0_0 : ∀ a, (![0, 0] : Fin 2 → Nat) a + S512x512.size a ≤ S512x512.size a
  h_S512x512 : 0 < S512x512.numel
  dot_S512x2176_S512x2176_S512x512_1_1_0_0_n_n_wf : DotDims.WF S512x2176 S512x2176 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2176.size a ≤ S8192x2176.size a
  hwx0_0 : ∀ i : grid0.Coords, EltTy.bits .f32 = 32 ∨ (Rect.block (s := S8192x2176) S512x2176.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2176.size a ≤ S2048x2176.size a
  hwx0_1 : ∀ i : grid0.Coords, EltTy.bits .bf16 = 32 ∨ (Rect.block (s := S2048x2176) S512x2176.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x2048.size a
  hwx0_2 : ∀ i : grid0.Coords, EltTy.bits .f32 = 32 ∨ (Rect.block (s := S8192x2048) S512x512.size (cc0_transform_2 i) (hinb0_2 i)).WholeWords (EltTy.packing .f32)

variable [Facts₀]

def dot_S512x2176_S512x2176_S512x512_1_1_0_0_n_n : DotDims S512x2176 S512x2176 S512x512 where
  lhsContracting := [1]
  rhsContracting := [1]
  lhsNonContracting := [0]
  rhsNonContracting := [0]
  lhsBatch := []
  rhsBatch := []
  wf := dot_S512x2176_S512x2176_S512x512_1_1_0_0_n_n_wf

abbrev win0_0 : Pipeline.Window sig grid0 :=
  Pipeline.Window.ofSpec (Memref.whole main_v2) S512x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x2176.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2049 : Shape := ⟨2, ![2048, 2049]⟩
abbrev S_ : Shape := ⟨0, ![]⟩
abbrev S8192x1 : Shape := ⟨2, ![8192, 1]⟩
abbrev S8192x2049 : Shape := ⟨2, ![8192, 2049]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2049, .f32⟩
  | .hbm, ⟨2, _⟩ => ⟨S_, .f32⟩
  | .hbm, ⟨3, _⟩ => ⟨S8192x1, .f32⟩
  | .hbm, ⟨4, _⟩ => ⟨S8192x2049, .f32⟩
  | .hbm, ⟨5, _⟩ => ⟨S_, .f32⟩
  | .hbm, ⟨6, _⟩ => ⟨S8192x2049, .f32⟩
  | .hbm, ⟨7, _⟩ => ⟨S8192x2049, .f32⟩
  | .hbm, ⟨8, _⟩ => ⟨S8192x2049, .f32⟩
  | .hbm, ⟨9, _⟩ => ⟨S8192x2049, .f32⟩
  | .hbm, ⟨10, _⟩ => ⟨S8192x2049, .i1⟩
  | .hbm, ⟨11, _⟩ => ⟨S8192x2049, .f32⟩
  | .hbm, ⟨12, _⟩ => ⟨S8192x2049, .f32⟩
  | .hbm, ⟨13, _⟩ => ⟨S8192x2049, .f32⟩
  | .hbm, ⟨14, _⟩ => ⟨S8192x2049, .f32⟩
  | .hbm, ⟨15, _⟩ => ⟨S8192x2049, .f32⟩
  | .hbm, ⟨16, _⟩ => ⟨S8192x2049, .f32⟩
  | .hbm, ⟨17, _⟩ => ⟨S8192x2049, .f32⟩
  | .hbm, ⟨18, _⟩ => ⟨S8192x2049, .f32⟩
  | .hbm, ⟨19, _⟩ => ⟨S_, .f32⟩
  | .hbm, ⟨20, _⟩ => ⟨S8192x2049, .f32⟩
  | .hbm, ⟨21, _⟩ => ⟨S8192x2049, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x2048_S8192x1_S8192x2049_d1 : Shape.Concatenates [S8192x2048, S8192x1] S8192x2049 1
  bcast_S_S8192x2049 : S_.BroadcastsInDim S8192x2049 (![] : Fin 0 → Fin S8192x2049.rank)
  dot_S8192x2049_S2048x2049_S8192x2048_1_1_0_0_n_n_wf : DotDims.WF S8192x2049 S2048x2049 S8192x2048 [1] [1] [0] [0] [] []

variable [Facts₀]

def dot_S8192x2049_S2048x2049_S8192x2048_1_1_0_0_n_n : DotDims S8192x2049 S2048x2049 S8192x2048 where
  lhsContracting := [1]
  rhsContracting := [1]
  lhsNonContracting := [0]
  rhsNonContracting := [0]
  lhsBatch := []
  rhsBatch := []
  wf := dot_S8192x2049_S2048x2049_S8192x2048_1_1_0_0_n_n_wf

class Facts : Prop extends Facts₀ where

variable [Facts]
-- ==== Proof.KernelFrame.lean ====
/-
  The frame of the program: its @main is three stretches of host operations — the bias column of ones and the
  127 zero columns concatenated to `x` (an array of 2176 = 17·128 columns), the weight matrix padded by 127 zero
  columns, and its change of format — and then ONE pipelined region on a 16 × 4 grid. At grid point (i, j) the
  body reads a 512 × 2176 block of the widened `x` and a 512 × 2176 block of the widened weights and stores one
  512 × 512 tile of the result; it keeps nothing between points and covers its output tile with one store.
  So the run terminates without a fault, each tile written back is a function of the two blocks the point reads,
  and no host operation or tile write touches an argument array: the arguments end as launched.
-/
import proofs.«102957_j11871289606591_1_alg».proof.Proof.Gen.Kernel.Launch
import proofs.«102957_j11871289606591_1_alg».proof.Proof.Gen.Kernel.Skeleton
import proofs.«102957_j11871289606591_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the argument `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes the argument `W`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the widened `x` holds the point's block whether or not the point fetched it: a point that
    does not fetch has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the widened weights. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline (its windows stage the widened copies and the result), so the run
    leaves each as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

abbrev rIn : Rect S512x2176 := Rect.unit (s := S512x2176) ![0, 0] S512x2176.size inb_S512x2176_S512x2176_0_0
abbrev rOut : Rect S512x512 := Rect.unit (s := S512x512) ![0, 0] S512x512.size inb_S512x512_S512x512_0_0

/-! ## What the body leaves in the output tile's buffer -/

/-- The output tile's staging buffer after the body: its one store, of the product of the two blocks. -/
def tile (x0 : Vec F S512x2176 .f32) (x1 : Vec F S512x2176 .bf16) : Vec F S512x512 .f32 :=
  View.canon [⟨rOut, k0_pay1 (View.ld x0 rIn) (View.ld x1 rIn)⟩]

/-- The one store is of the whole tile. -/
theorem tile_cover (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The body's triple -/

set_option maxHeartbeats 1000000 in
/-- The body on whole staging memrefs, the inputs' at contents `x0`, `x1` and the output's at anything, returns
    with the inputs' as they were and the output's at `tile x0 x1`. -/
theorem sound_kernel (c : Dev nD) (E : Set ℕ) (i : grid0.Coords) (arg2 : Memref sig .tc .vmem S512x2176 .f32) (harg2 : arg2.IsWhole) (arg3 : Memref sig .tc .vmem S512x2176 .bf16) (harg3 : arg3.IsWhole) (arg4 : Memref sig .tc .vmem S512x512 .f32) (harg4 : arg4.IsWhole)
    (x0 : Vec F S512x2176 .f32) (x1 : Vec F S512x2176 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__kan_kernel i arg2 harg2 arg3 harg3 arg4 harg4) K := by
  simp only [cc0__kan_kernel_eq_skeleton]; unfold cc0__kan_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The pipeline's proof data -/

/-- On core `c`: the arrays as the region finds them; after the body at point `t` each input's buffer at its block
    and the output's at the tile of the two blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each array of the pipeline ends at what the
    proof data's write-backs make of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frm

end
-- ==== Proof.KernelIdealFrame.lean ====
/-
  The frame of the program: its @main is three stretches of host operations — the bias column of ones and the
  127 zero columns concatenated to `x` (an array of 2176 = 17·128 columns), the weight matrix padded by 127 zero
  columns, and its change of format — and then ONE pipelined region on a 16 × 4 grid. At grid point (i, j) the
  body reads a 512 × 2176 block of the widened `x` and a 512 × 2176 block of the widened weights and stores one
  512 × 512 tile of the result; it keeps nothing between points and covers its output tile with one store.
  So the run terminates without a fault, each tile written back is a function of the two blocks the point reads,
  and no host operation or tile write touches an argument array: the arguments end as launched.
-/
import proofs.«102957_j11871289606591_1_alg».proof.Proof.Gen.KernelIdeal.Launch
import proofs.«102957_j11871289606591_1_alg».proof.Proof.Gen.KernelIdeal.Skeleton
import proofs.«102957_j11871289606591_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the argument `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes the argument `W`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the widened `x` holds the point's block whether or not the point fetched it: a point that
    does not fetch has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the widened weights. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline (its windows stage the widened copies and the result), so the run
    leaves each as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

abbrev rIn : Rect S512x2176 := Rect.unit (s := S512x2176) ![0, 0] S512x2176.size inb_S512x2176_S512x2176_0_0
abbrev rOut : Rect S512x512 := Rect.unit (s := S512x512) ![0, 0] S512x512.size inb_S512x512_S512x512_0_0

/-! ## What the body leaves in the output tile's buffer -/

/-- The output tile's staging buffer after the body: its one store, of the product of the two blocks. -/
def tile (x0 : Vec F S512x2176 .f32) (x1 : Vec F S512x2176 .bf16) : Vec F S512x512 .f32 :=
  View.canon [⟨rOut, k0_pay1 (View.ld x0 rIn) (View.ld x1 rIn)⟩]

/-- The one store is of the whole tile. -/
theorem tile_cover (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The body's triple -/

set_option maxHeartbeats 1000000 in
/-- The body on whole staging memrefs, the inputs' at contents `x0`, `x1` and the output's at anything, returns
    with the inputs' as they were and the output's at `tile x0 x1`. -/
theorem sound_kernel (c : Dev nD) (E : Set ℕ) (i : grid0.Coords) (arg2 : Memref sig .tc .vmem S512x2176 .f32) (harg2 : arg2.IsWhole) (arg3 : Memref sig .tc .vmem S512x2176 .bf16) (harg3 : arg3.IsWhole) (arg4 : Memref sig .tc .vmem S512x512 .f32) (harg4 : arg4.IsWhole)
    (x0 : Vec F S512x2176 .f32) (x1 : Vec F S512x2176 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__kan_kernel i arg2 harg2 arg3 harg3 arg4 harg4) K := by
  simp only [cc0__kan_kernel_eq_skeleton]; unfold cc0__kan_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The pipeline's proof data -/

/-- On core `c`: the arrays as the region finds them; after the body at point `t` each input's buffer at its block
    and the output's at the tile of the two blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each array of the pipeline ends at what the
    proof data's write-backs make of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frm

end
-- ==== Proof.Pointwise.lean ====
/-
  The pointwise function of both programs and the two facts about sums the comparison needs.

  Both programs apply to each entry `z` of the widened input the shifted softplus
  `max z 0 + log (1 + exp (−|z − 0|)) − c`, with `c` the single-precision word nearest to log 2, written as
  jax's `logaddexp z 0`: a select on `z − 0 ≠ z − 0` (never true on the extended reals) between `z + 0` and that
  expression. The kernel writes the negation as `0 − ·` and asks the ordered form of the comparison, the
  reference writes `−·` and asks the unordered form; on the extended reals these are the same function.

  The kernel contracts over 2176 columns, the reference over the first 2049: when the last 127 summands are
  zero the two sums agree.
-/
import Idealize.ShloMosaic.PureOps.Ideal
import Idealize.ShloMosaic.PureOps.Ideal.Laws
import Idealize.ShloMosaic.Lib.ValueIdx
import Mathlib.Algebra.BigOperators.Fin

noncomputable section

namespace Cert.Pointwise

open Idealize.ShloMosaic

/-- The zero word and the word of log 2, as extended reals. -/
abbrev zeroW : Ideal .f32 := FloatOps.ofBits (F := Ideal) .f32 0x00000000#32
abbrev ln2W : Ideal .f32 := FloatOps.ofBits (F := Ideal) .f32 0x3F317218#32

/-- The shifted softplus of one entry, in the kernel's spelling. -/
def phiK (z : Ideal .f32) : Ideal .f32 :=
  FloatOps.subf
    (Scalar.select (FloatOps.cmpf .one (FloatOps.subf z zeroW) (FloatOps.subf z zeroW)) (FloatOps.addf z zeroW)
      (FloatOps.addf (FloatOps.maximumf z zeroW)
        (FloatOps.log1p (FloatOps.exp (FloatOps.subf zeroW (FloatOps.absf (FloatOps.subf z zeroW)))))))
    ln2W

/-- The shifted softplus of one entry, in the reference's spelling. -/
def phiR (z : Ideal .f32) : Ideal .f32 :=
  FloatOps.subf
    (Scalar.select (FloatOps.cmpf .une (FloatOps.subf z zeroW) (FloatOps.subf z zeroW)) (FloatOps.addf z zeroW)
      (FloatOps.addf (FloatOps.maximumf z zeroW)
        (FloatOps.hostUnary .log1p (FloatOps.hostUnary .exp (FloatOps.hostNegf (FloatOps.hostAbsf (FloatOps.subf z zeroW)))))))
    ln2W

/-- The two spellings are one function: `0 − a = −a`, and the two comparisons are both `a ≠ a`. -/
theorem phiK_eq_phiR (z : Ideal .f32) : phiK z = phiR z := by
  unfold phiK phiR
  have h0 : (zeroW : EReal) = 0 := Ideal.ofBits_zero_f32
  have hneg : ∀ a : EReal, FloatOps.subf (F := Ideal) (φ := .f32) zeroW a = FloatOps.hostNegf (F := Ideal) (φ := .f32) a := fun a => by
    show (zeroW : EReal) - a = -a
    rw [h0, zero_sub]
  rw [hneg]
  rfl

/-- A sum whose last `p` summands vanish is the sum of the first `n`. -/
theorem sum_drop_zeros {n p : ℕ} (f : Fin (n + p) → EReal) (h : ∀ k : Fin p, f (Fin.natAdd n k) = 0) :
    ∑ k, f k = ∑ k : Fin n, f (Fin.castAdd p k) := by
  rw [Fin.sum_univ_add, Finset.sum_eq_zero (fun k _ => h k), add_zero]

end Cert.Pointwise

end
-- ==== Proof.KernelPayload.lean ====
/-
  One entry of the tile the body stores, on the extended reals: entry (p, q) is the sum over the 2176 columns
  `k` of the shifted softplus of the `x` block's entry (p, k) times the weight block's entry (q, k) — the matrix
  unit contracts the second axis of both operands into a zero accumulator, and the change of format before it is
  the identity.
-/
import proofs.«102957_j11871289606591_1_alg».proof.Proof.Gen.KernelIdeal.Skeleton
import proofs.«102957_j11871289606591_1_alg».proof.Proof.Pointwise
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Pointwise
open Idealize.ShloMosaic Idealize.ShloMosaic.ValueIdx

/-- The body's contraction: second axis against second axis, no batch axis. -/
abbrev D := dot_S512x2176_S512x2176_S512x512_1_1_0_0_n_n

theorem lhs_0 (i : S512x512.Idx) (q : dot_S512x2176_S512x2176_S512x512_1_1_0_0_n_n.contr.Idx) :
    (dot_S512x2176_S512x2176_S512x512_1_1_0_0_n_n.lhsIdx i q 0).val = (i 0).val := by
  unfold DotDims.lhsIdx
  rw [dif_neg (show ¬(0 : Fin S512x2176.rank) ∈ dot_S512x2176_S512x2176_S512x512_1_1_0_0_n_n.lhsBatch by decide), dif_pos (show (0 : Fin S512x2176.rank) ∈ dot_S512x2176_S512x2176_S512x512_1_1_0_0_n_n.lhsNonContracting by decide)]
  rfl
theorem lhs_1 (i : S512x512.Idx) (q : dot_S512x2176_S512x2176_S512x512_1_1_0_0_n_n.contr.Idx) :
    (dot_S512x2176_S512x2176_S512x512_1_1_0_0_n_n.lhsIdx i q 1).val = (q ⟨0, by decide⟩).val :=
  dot_S512x2176_S512x2176_S512x512_1_1_0_0_n_n.lhsIdx_val_of_single rfl i q
theorem rhs_0 (i : S512x512.Idx) (q : dot_S512x2176_S512x2176_S512x512_1_1_0_0_n_n.contr.Idx) :
    (dot_S512x2176_S512x2176_S512x512_1_1_0_0_n_n.rhsIdx i q 0).val = (i 1).val := by
  unfold DotDims.rhsIdx
  rw [dif_neg (show ¬(0 : Fin S512x2176.rank) ∈ dot_S512x2176_S512x2176_S512x512_1_1_0_0_n_n.rhsBatch by decide), dif_pos (show (0 : Fin S512x2176.rank) ∈ dot_S512x2176_S512x2176_S512x512_1_1_0_0_n_n.rhsNonContracting by decide)]
  rfl
theorem rhs_1 (i : S512x512.Idx) (q : dot_S512x2176_S512x2176_S512x512_1_1_0_0_n_n.contr.Idx) :
    (dot_S512x2176_S512x2176_S512x512_1_1_0_0_n_n.rhsIdx i q 1).val = (q ⟨0, by decide⟩).val :=
  dot_S512x2176_S512x2176_S512x512_1_1_0_0_n_n.rhsIdx_val_of_single rfl i q

/-- Entry (p, q) of the stored tile. -/
theorem pay_apply (x0 : Vec Ideal S512x2176 .f32) (x1 : Vec Ideal S512x2176 .bf16) (p q : Fin 512) :
    k0_pay1 (F := Ideal) x0 x1 (ix2 p q) = ∑ k : Fin 2176, phiK (x0 (ix2 p k)) * x1 (ix2 q k) := by
  unfold k0_pay1
  simp only [matmul]
  rw [Ideal.matmul_constant_zero_apply, ← Equiv.sum_comp (contrEquiv1 dot_S512x2176_S512x2176_S512x512_1_1_0_0_n_n 2176 rfl rfl).symm]
  refine Finset.sum_congr rfl fun k _ => ?_
  have hk := contrEquiv1_symm_val dot_S512x2176_S512x2176_S512x512_1_1_0_0_n_n 2176 rfl rfl k
  have el : dot_S512x2176_S512x2176_S512x512_1_1_0_0_n_n.lhsIdx (ix2 p q) ((contrEquiv1 dot_S512x2176_S512x2176_S512x512_1_1_0_0_n_n 2176 rfl rfl).symm k) = ix2 p k := funext fun a => Fin.ext (by
    match a with
    | ⟨0, _⟩ => exact lhs_0 _ _
    | ⟨1, _⟩ => exact (lhs_1 _ _).trans hk)
  have er : dot_S512x2176_S512x2176_S512x512_1_1_0_0_n_n.rhsIdx (ix2 p q) ((contrEquiv1 dot_S512x2176_S512x2176_S512x512_1_1_0_0_n_n 2176 rfl rfl).symm k) = ix2 q k := funext fun a => Fin.ext (by
    match a with
    | ⟨0, _⟩ => exact rhs_0 _ _
    | ⟨1, _⟩ => exact (rhs_1 _ _).trans hk)
  rw [el, er, shapeCast_self, shapeCast_self]
  rfl

end Cert.KernelIdeal.Payload

end
-- ==== Proof.Spec.lean ====
/-
  The result both programs compute, as one function of the two argument arrays.

  Entry (b, o) of the result is the sum over the 2049 columns `k` of the shifted softplus of the widened input's
  entry (b, k) times the weight `W (o, k)`; the widened input is `x` in its first 2048 columns and 1 in column 2048.
  The kernel widens both arrays further, to 2176 columns, with zeros: its last 127 summands are a finite-or-not
  value times 0, which is 0 on the extended reals, so its sum over 2176 columns is the same number.
-/
import proofs.«102957_j11871289606591_1_alg».proof.Proof.Pointwise

noncomputable section

namespace Cert.Spec

open Idealize.ShloMosaic Idealize.ShloMosaic.ValueIdx Cert.Pointwise

abbrev SX : Shape := ⟨2, ![8192, 2048]⟩
abbrev SW : Shape := ⟨2, ![2048, 2049]⟩
abbrev SX2 : Shape := ⟨2, ![8192, 2176]⟩
abbrev SW2 : Shape := ⟨2, ![2048, 2176]⟩

/-- The word of 1. -/
abbrev oneW : Ideal .f32 := FloatOps.ofBits (F := Ideal) .f32 0x3F800000#32

/-- Entry (r, k) of `x` widened: `x` itself below column 2048, 1 in column 2048, 0 beyond. -/
def xw (x : SX.Idx → EReal) (r : Fin 8192) (k : ℕ) : EReal :=
  if h : k < 2048 then x (ix2 r ⟨k, h⟩) else if k = 2048 then oneW else zeroW

/-- Entry (o, k) of `W` widened with zeros beyond column 2048. -/
def ww (W : SW.Idx → EReal) (o : Fin 2048) (k : ℕ) : EReal :=
  if h : k < 2049 then W (ix2 o ⟨k, h⟩) else 0

/-- The result: the contraction over the 2049 columns. -/
def G (x : SX.Idx → EReal) (W : SW.Idx → EReal) : SX.Idx → EReal := fun i =>
  ∑ k : Fin 2049, phiR (xw x ⟨(i 0).val, idx2_lt0 i⟩ k.val) * W (ix2 ⟨(i 1).val, idx2_lt1 i⟩ k)

/-- The kernel's contraction over the 2176 columns of its two widened arrays. -/
def Gk (X2 : SX2.Idx → EReal) (W4 : SW2.Idx → EReal) : SX.Idx → EReal := fun i =>
  ∑ k : Fin 2176, phiK (X2 (ix2 ⟨(i 0).val, idx2_lt0 i⟩ k)) * W4 (ix2 ⟨(i 1).val, idx2_lt1 i⟩ k)

/-- When the kernel's arrays are the widened arguments, its contraction is the result: the last 127 summands are
    a value times 0. -/
theorem Gk_eq_G (x : SX.Idx → EReal) (W : SW.Idx → EReal) (X2 : SX2.Idx → EReal) (W4 : SW2.Idx → EReal)
    (hX : ∀ (r : Fin 8192) (k : Fin 2176), X2 (ix2 r k) = xw x r k.val)
    (hW : ∀ (o : Fin 2048) (k : Fin 2176), W4 (ix2 o k) = ww W o k.val) : Gk X2 W4 = G x W := by
  funext i
  unfold Gk G
  simp only [hX, hW]
  have key := sum_drop_zeros (n := 2049) (p := 127)
    (fun k => phiK (xw x ⟨(i 0).val, idx2_lt0 i⟩ k.val) * ww W ⟨(i 1).val, idx2_lt1 i⟩ k.val)
    (fun k => by
      show phiK _ * ww W _ (2049 + k.val) = 0
      unfold ww
      rw [dif_neg (by omega), mul_zero])
  refine key.trans (Finset.sum_congr rfl fun k _ => ?_)
  show phiK (xw x _ k.val) * ww W _ k.val = _
  unfold ww
  rw [dif_pos k.isLt, phiK_eq_phiR]

end Cert.Spec

end
-- ==== Proof.KernelTiles.lean ====
/-
  From tiles to the array. Grid point (i, j) reads rows 512 i … 512 i + 511 of the widened input and rows
  512 j … 512 j + 511 of the widened weights, both over all 2176 columns, and writes tile (i, j) of the result.
  Entry (p, q) of that tile is the contraction of row 512 i + p of the one with row 512 j + q of the other, which is
  entry (512 i + p, 512 j + q) of ONE function of the two widened arrays; the 16 × 4 tiles cover the result, so the
  result array ends at that function.
-/
import proofs.«102957_j11871289606591_1_alg».proof.Proof.KernelIdealFrame
import proofs.«102957_j11871289606591_1_alg».proof.Proof.KernelPayload
import proofs.«102957_j11871289606591_1_alg».proof.Proof.Spec
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.KernelIdeal.Frm Cert.KernelIdeal.Payload Cert.Pointwise Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the input block's row index is the tile's row index, the weight block's row index
    is the tile's column index, both start at column 0, and the tile indices stay inside 16 × 4. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 3 :=
  (by decide +kernel : ∀ t : Fin grid0.N, _)

/-- Every tile is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- One tile entry, for blocks that are rows `512 i0 + ·` and `512 i1 + ·` of two arrays: the contraction of those
    two rows. -/
theorem tile_entry (X2 : SX2.Idx → EReal) (W4 : SW2.Idx → EReal) (i0 i1 : ℕ) (h0 : i0 ≤ 15) (h1 : i1 ≤ 3)
    (x0 : Vec Ideal S512x2176 .f32) (x1 : Vec Ideal S512x2176 .bf16)
    (hx0 : ∀ (p : Fin 512) (k : Fin 2176), x0 (ix2 p k) = X2 (ix2 ⟨i0 * 512 + p.val, by omega⟩ k))
    (hx1 : ∀ (q : Fin 512) (k : Fin 2176), x1 (ix2 q k) = W4 (ix2 ⟨i1 * 512 + q.val, by omega⟩ k))
    (p q : Fin 512) :
    k0_pay1 (F := Ideal) x0 x1 (ix2 p q) = Gk X2 W4 (ix2 ⟨i0 * 512 + p.val, by omega⟩ ⟨i1 * 512 + q.val, by omega⟩) := by
  rw [pay_apply]
  unfold Gk
  refine Finset.sum_congr rfl fun k _ => ?_
  rw [hx0, hx1]

/-- What point `t` writes back is block `t` of the contraction of the two widened arrays. -/
theorem flushed_eq (c : Dev nD) (t : Fin cfg0.N) :
    (dats m 0 c).flushed 2 t = ((cfg0.win 2).blk t).view.read (Elt Ideal) (Gk (V m c main_v2) (V m c main_v4)) := by
  show (cfg0.win 2).cut (grid0.coords t) ((dats m 0 c).after 2 t) = _
  rw [after0_2]
  unfold tile
  rw [View.canon_unit_zero hz]
  simp only [View.ld_unit_zero (S := S512x2176) hz]
  obtain ⟨e0, e1, e2, e3, e4, e5⟩ := idx_facts t
  funext j
  obtain ⟨p, q, hpq⟩ : ∃ (p q : Fin 512), (j : S512x512.Idx) = ix2 p q := ⟨j 0, j 1, eq_ix2 (n0 := 512) (n1 := 512) j⟩
  subst hpq
  show k0_pay1 (F := Ideal) (iblk m c 0 t) (iblk m c 1 t) (ix2 p q)
    = Gk (V m c main_v2) (V m c main_v4) (((cfg0.win 2).blk t).view.emb (ix2 p q))
  refine (tile_entry (V m c main_v2) (V m c main_v4) (win0_2.index t (0 : Fin 2)) (win0_2.index t (1 : Fin 2)) e4 e5
    (iblk m c 0 t) (iblk m c 1 t) ?_ ?_ p q).trans ?_
  · intro p' k
    show V m c main_v2 (((cfg0.win 0).blk t).view.emb (ix2 p' k)) = _
    refine congrArg _ (funext fun a => Fin.ext ?_)
    match a with
    | ⟨0, _⟩ => show win0_0.index t (0 : Fin 2) * 512 + 1 * p'.val = win0_2.index t (0 : Fin 2) * 512 + p'.val; rw [e0]; omega
    | ⟨1, _⟩ => show win0_0.index t (1 : Fin 2) * 2176 + 1 * k.val = k.val; rw [e1]; omega
  · intro q' k
    show V m c main_v4 (((cfg0.win 1).blk t).view.emb (ix2 q' k)) = _
    refine congrArg _ (funext fun a => Fin.ext ?_)
    match a with
    | ⟨0, _⟩ => show win0_1.index t (0 : Fin 2) * 512 + 1 * q'.val = win0_2.index t (1 : Fin 2) * 512 + q'.val; rw [e2]; omega
    | ⟨1, _⟩ => show win0_1.index t (1 : Fin 2) * 2176 + 1 * k.val = k.val; rw [e3]; omega
  · refine congrArg _ (funext fun a => Fin.ext ?_)
    match a with
    | ⟨0, _⟩ => show win0_2.index t (0 : Fin 2) * 512 + p.val = win0_2.index t (0 : Fin 2) * 512 + 1 * p.val; omega
    | ⟨1, _⟩ => show win0_2.index t (1 : Fin 2) * 512 + q.val = win0_2.index t (1 : Fin 2) * 512 + 1 * q.val; omega

/-- An index of the result is in point `t`'s tile iff each coordinate is in the tile's range. -/
theorem mem_blk (t : Fin cfg0.N) (i : S8192x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v5).slice (win0_2.rect t)).set ↔ _
  rw [View.set_slice_whole, Rect.mem_set_unit]
  exact Iff.rfl

/-- The tiles cover the result: entry (b, o) is in tile (b / 512, o / 512). -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the run: the contraction of the two widened arrays as the region found them. -/
theorem final (c : Dev nD) : (dats m 0 c).arrAt 2 cfg0.N = Gk (V m c main_v2) (V m c main_v4) :=
  (dats m 0 c).arrAt_eq_of_cover 2 (Gk (V m c main_v2) (V m c main_v4)) (fun t _ => flushed_eq m c t) cover

end Cert.KernelIdeal.Tiles

end
-- ==== Proof.HostPrefix.lean ====
/-
  What the region finds in its two input arrays, entry by entry.

  The first host stretch joins `x`, a column of ones and 127 columns of zeros along the column axis: entry (r, k) of
  the joined array is `x (r, k)` for k < 2048, 1 for k = 2048 and 0 beyond. The second pads `W` with 127 columns of
  the integer 0 converted to a float, and the third changes the format, which is the identity on the extended reals:
  entry (o, k) is `W (o, k)` for k < 2049 and 0 beyond.
-/
import proofs.«102957_j11871289606591_1_alg».proof.Proof.KernelIdealFrame
import proofs.«102957_j11871289606591_1_alg».proof.Proof.Spec
import Idealize.ShloMosaic.Lib.Pipeline.Value
import Idealize.ShloMosaic.Lib.ValueIdx
import Idealize.ShloMosaic.Lib.StableHlo.Run
import Idealize.ShloMosaic.Lib.KernelVsHost
import Idealize.ShloMosaic.PureOps.Ideal.Laws

noncomputable section

namespace Cert.KernelIdeal.HostPrefix

open Cert.KernelIdeal Cert.KernelIdeal.Gen Cert.KernelIdeal.Frm Cert.Pointwise Cert.Spec
open Idealize.ShloMosaic Idealize.ShloMosaic.TcCoe Idealize.SL.Sem Idealize.ShloMosaic.StableHlo Idealize.ShloMosaic.ValueIdx

section AnyInstance
variable {F : FTy → Type} [FloatOps F]
variable (m : (ℓ : Loc nD τ sig) → Buf (Elt F) ℓ)

/-- The widened input as the region finds it: the three pieces joined along the columns. -/
theorem V_main_v2 (c : Dev nD) : (V m c main_v2 : S8192x2176.Idx → Elt F .f32) =
    concatenate S8192x2176 1 [⟨S8192x2048, m ((c : Thread nD τ).loc main_arg0)⟩,
      ⟨S8192x1, broadcastInDim S8192x1 ![] bcast_S_S8192x1 (constant (F := F) S_ .f32 0x3F800000#32)⟩,
      ⟨S8192x127, broadcastInDim S8192x127 ![] bcast_S_S8192x127 (constant (F := F) S_ .f32 0x00000000#32)⟩]
      concatenates_S8192x2048_S8192x1_S8192x127_S8192x2176_d1 := by
  dsimp only [V]
  simp only [hostOps0, hostOps0_1, hostOps0_2, List.flatten_cons, List.flatten_nil, List.append_nil, List.cons_append, List.nil_append]
  after_results
  show concatenate S8192x2176 1 [⟨S8192x2048, HloOp.result _ _ (Proc.devRef .tc main_arg0)⟩, ⟨S8192x1, HloOp.result _ _ (Proc.devRef .tc main_v0)⟩, ⟨S8192x127, HloOp.result _ _ (Proc.devRef .tc main_v1)⟩] _ = _
  repeat (first
    | rw [nullary_result] | rw [unary_result]
    | (rw [nullary_result_ne]; rotate_left; decide)
    | (rw [unary_result_ne]; rotate_left; decide))

/-- The widened weights as the region finds them: `W` padded on the right, in the matrix unit's input format. -/
theorem V_main_v4 (c : Dev nD) : (V m c main_v4 : S2048x2176.Idx → Elt F .bf16) =
    truncf .bf16 (pad S2048x2176 ![0, 0] ![0, 127] ![0, 0] (m ((c : Thread nD τ).loc main_arg1)) (sitofp .f32 (constantI S_ 32 0#32)) pads_S2048x2049_S2048x2176_000_01270 h_S_) bitsLt_bf16_f32 := by
  dsimp only [V]
  simp only [hostOps0, hostOps0_1, hostOps0_2, List.flatten_cons, List.flatten_nil, List.append_nil, List.cons_append, List.nil_append]
  after_results
  rfl

end AnyInstance

variable (m : (ℓ : Loc nD τ sig) → Buf (Elt Ideal) ℓ)

/-- Entry (r, k) of the widened input. -/
theorem X2_apply (c : Dev nD) (r : Fin 8192) (k : Fin 2176) :
    (V m c main_v2 : S8192x2176.Idx → EReal) (ix2 r k) = xw (m ((c : Thread nD τ).loc main_arg0)) r k.val := by
  rw [V_main_v2]
  unfold xw
  by_cases h1 : k.val < 2048
  · rw [dif_pos h1]
    refine concatenate_apply_piece (1 : Fin 2) _ _ (ix2 r k) 0 ?_ S8192x2048 (m ((c : Thread nD τ).loc main_arg0)) ?_ rfl 0 ?_ (ix2 r ⟨k.val, h1⟩) ?_ ?_
    · simp
    · rfl
    · rfl
    · intro b hb; match b with | ⟨0, _⟩ => rfl | ⟨1, _⟩ => exact absurd rfl hb
    · exact Nat.zero_add _
  · rw [dif_neg h1]
    by_cases h2 : k.val = 2048
    · rw [if_pos h2]
      refine (concatenate_apply_piece (1 : Fin 2) _ _ (ix2 r k) 1 ?_ S8192x1 (broadcastInDim S8192x1 ![] bcast_S_S8192x1 (constant (F := Ideal) S_ .f32 0x3F800000#32)) ?_ rfl 2048 ?_ (ix2 r (0 : Fin 1)) ?_ ?_).trans ?_
      · simp
      · rfl
      · rfl
      · intro b hb; match b with | ⟨0, _⟩ => rfl | ⟨1, _⟩ => exact absurd rfl hb
      · show 2048 + 0 = k.val; omega
      · rfl
    · rw [if_neg h2]
      have hk : k.val < 2176 := k.isLt
      refine (concatenate_apply_piece (1 : Fin 2) _ _ (ix2 r k) 2 ?_ S8192x127 (broadcastInDim S8192x127 ![] bcast_S_S8192x127 (constant (F := Ideal) S_ .f32 0x00000000#32)) ?_ rfl 2049 ?_ (ix2 r (⟨k.val - 2049, by omega⟩ : Fin 127)) ?_ ?_).trans ?_
      · simp
      · rfl
      · rfl
      · intro b hb; match b with | ⟨0, _⟩ => rfl | ⟨1, _⟩ => exact absurd rfl hb
      · show 2049 + (k.val - 2049) = k.val; omega
      · rfl

/-- Entry (o, k) of the widened weights. -/
theorem W4_apply (c : Dev nD) (o : Fin 2048) (k : Fin 2176) :
    (V m c main_v4 : S2048x2176.Idx → EReal) (ix2 o k) = ww (m ((c : Thread nD τ).loc main_arg1)) o k.val := by
  rw [V_main_v4]
  show pad S2048x2176 ![0, 0] ![0, 127] ![0, 0] (m ((c : Thread nD τ).loc main_arg1)) (sitofp (F := Ideal) .f32 (constantI S_ 32 0#32)) pads_S2048x2049_S2048x2176_000_01270 h_S_ (ix2 o k) = _
  unfold ww
  by_cases h1 : k.val < 2049
  · rw [dif_pos h1]
    exact pad_apply_of_inside _ _ _ _ _ _ _ (ix2 o k) (ix2 o ⟨k.val, h1⟩)
      (fun a => by match a with
        | ⟨0, _⟩ => show o.val = 0 + o.val * (0 + 1); omega
        | ⟨1, _⟩ => show k.val = 0 + k.val * (0 + 1); omega)
  · rw [dif_neg h1]
    refine (pad_apply_of_not_inside _ _ _ _ _ _ _ (ix2 o k) (1 : Fin 2) (fun h => h1 ?_)).trans ?_
    · have := h.2.2
      have e : ((ix2 o k : S2048x2176.Idx) ((1 : Fin 2).cast pads_S2048x2049_S2048x2176_000_01270.1)).val = k.val := rfl
      rw [e] at this
      have : (k.val - 0) / (0 + 1) < 2049 := this
      omega
    · show ((( (0#32 : BitVec 32).toInt : ℝ)) : EReal) = 0
      simp

end Cert.KernelIdeal.HostPrefix

end
-- ==== Proof.KernelRun.lean ====
/-
  The idealized kernel's run, read: every weakly fair execution terminates with the result array at the result
  function of the two argument arrays — the tiles' contraction of the widened arrays, which are the arguments
  widened by ones and zeros — and with the arguments as launched.
-/
import proofs.«102957_j11871289606591_1_alg».proof.Proof.KernelTiles
import proofs.«102957_j11871289606591_1_alg».proof.Proof.HostPrefix

noncomputable section

namespace Cert.KernelIdeal.Run

open Cert.KernelIdeal Cert.KernelIdeal.Gen Cert.KernelIdeal.Frm Cert.KernelIdeal.Tiles Cert.KernelIdeal.HostPrefix Cert.Spec
open Idealize.ShloMosaic Idealize.ShloMosaic.TcCoe Idealize.SL.Sem

variable (m : (ℓ : Loc nD τ sig) → Buf (Elt Ideal) ℓ) (ρ : Dev nD → PrngReg)

/-- The result array after the run, as a function of the arguments. -/
theorem result (c : Dev nD) : (dats m 0 c).arrAt 2 cfg0.N
    = G (m ((c : Thread nD τ).loc main_arg0)) (m ((c : Thread nD τ).loc main_arg1)) :=
  (final m c).trans (Gk_eq_G _ _ _ _ (X2_apply m c) (W4_apply m c))

theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Run

end
-- ==== Proof.RefValue.lean ====
/-
  The reference computes the result function. Its run ends with the contraction, over the 2049 columns, of the
  shifted softplus of `x` joined with a column of ones against `W`; read at an index through the stages of the
  run, the left factor at (b, k) is the shifted softplus of the joined array's entry, which is `x (b, k)` for
  k < 2048 and 1 at k = 2048.
-/
import proofs.«102957_j11871289606591_1_alg».proof.Proof.Gen.ReferenceIdeal.Read
import proofs.«102957_j11871289606591_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Pointwise Cert.Spec
open Idealize.ShloMosaic Idealize.ShloMosaic.ValueIdx

/-- Entry (r, k) of `x` joined with the column of ones. -/
theorem v1_apply (x : S8192x2048.Idx → EReal) (r : Fin 8192) (k : Fin 2049) :
    val_main_v1 (F := Ideal) x (ix2 r k) = xw x r k.val := by
  unfold val_main_v1 xw
  by_cases h1 : k.val < 2048
  · rw [dif_pos h1]
    refine concatenate_apply_piece (1 : Fin 2) _ _ (ix2 r k) 0 ?_ S8192x2048 x ?_ rfl 0 ?_ (ix2 r ⟨k.val, h1⟩) ?_ ?_
    · simp
    · rfl
    · rfl
    · intro b hb; match b with | ⟨0, _⟩ => rfl | ⟨1, _⟩ => exact absurd rfl hb
    · exact Nat.zero_add _
  · have hk : k.val < 2049 := k.isLt
    rw [dif_neg h1, if_pos (by omega)]
    refine (concatenate_apply_piece (1 : Fin 2) _ _ (ix2 r k) 1 ?_ S8192x1 (val_main_v0 (F := Ideal)) ?_ rfl 2048 ?_ (ix2 r (0 : Fin 1)) ?_ ?_).trans ?_
    · simp
    · rfl
    · rfl
    · intro b hb; match b with | ⟨0, _⟩ => rfl | ⟨1, _⟩ => exact absurd rfl hb
    · show 2048 + 0 = k.val; omega
    · rw [val_main_v0_apply, val_main_cst_apply]

/-- The stage before the contraction, at an index: the shifted softplus of the joined array's entry. -/
theorem v4_apply (x : S8192x2048.Idx → EReal) (j : S8192x2049.Idx) :
    val_main_v4 (F := Ideal) x j = phiR (val_main_v1 (F := Ideal) x j) := by
  rw [val_main_v4_apply, val_main_v2_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_call0_v0_apply, val_main_call0_v2_apply, val_main_call0_v5_apply, val_main_v3_apply,
    val_main_call0_cst_apply, val_main_cst_0_apply]
  rfl

/-- The reference's result is the result function of its two arguments. -/
theorem result_eq (x : S8192x2048.Idx → EReal) (W : S2048x2049.Idx → EReal) :
    val_main_v5 (F := Ideal) x W = G x W := by
  funext i
  rw [val_main_v5_apply]
  unfold G
  refine Finset.sum_congr rfl fun k _ => ?_
  have e1 : lidx_main_v5 i k = ix2 (⟨(i 0).val, idx2_lt0 i⟩ : Fin 8192) k :=
    funext fun a => Fin.ext (by match a with | ⟨0, _⟩ => rfl | ⟨1, _⟩ => rfl)
  have e2 : ridx_main_v5 i k = ix2 (⟨(i 1).val, idx2_lt1 i⟩ : Fin 2048) k :=
    funext fun a => Fin.ext (by match a with | ⟨0, _⟩ => rfl | ⟨1, _⟩ => rfl)
  rw [e1, e2, v4_apply, v1_apply]

end Cert.ReferenceIdeal.RefValue

end
-- ==== Proof.lean ====
/-
  The kernel is a linear layer over a shifted softplus: with `x` widened by a column of ones, the result's entry
  (b, o) is the sum over the columns k of (softplus (x (b, k)) − c) · W (o, k), `c` the single-precision word nearest
  to log 2. The kernel widens both arrays to 2176 = 17 · 128 columns with zeros, and one pipelined region on a
  16 × 4 grid writes the result tile by tile, each tile the product of a 512-row block of the one array with a
  512-row block of the other; the reference contracts the 2049 columns in one `dot_general`.

  On the extended reals a change of float format is the identity, the two programs' softplus chains are the same
  function of an entry (they differ in how a negation and a never-true comparison are written), a matrix product
  into a zero accumulator is the plain sum, and each of the kernel's 127 extra summands is a value times 0, which is
  0 whatever the value. So both programs end at one function of the argument arrays, and no finiteness of the
  inputs is used.

  The frames: each program terminates without a fault and writes no argument array — the kernel's programs because
  the host operations write only their own results and the region writes only the result array's tiles, the
  reference because it is a sequence of host operations. The idealization rewrote nothing, so it preserves the
  program trivially.
-/
import proofs.«102957_j11871289606591_1_alg».proof.Defs
import proofs.«102957_j11871289606591_1_alg».proof.Proof.Gen.Kernel
import proofs.«102957_j11871289606591_1_alg».proof.Proof.Gen.KernelIdeal
import proofs.«102957_j11871289606591_1_alg».proof.Proof.Gen.ReferenceIdeal
import proofs.«102957_j11871289606591_1_alg».proof.Proof.Gen.Pre_finite_inputs
import proofs.«102957_j11871289606591_1_alg».proof.Proof.Gen.ReferenceIdeal.Run
import proofs.«102957_j11871289606591_1_alg».proof.Proof.Gen.ReferenceIdeal.Read
import proofs.«102957_j11871289606591_1_alg».proof.Proof.KernelFrame
import proofs.«102957_j11871289606591_1_alg».proof.Proof.KernelIdealFrame
import proofs.«102957_j11871289606591_1_alg».proof.Proof.KernelRun
import proofs.«102957_j11871289606591_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `W`, both idealized programs end with the result array at the one result
    function of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v5_eq _ _).trans (Cert.ReferenceIdeal.RefValue.result_eq _ _))).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
